-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x56x56x30 : Shape := ⟨4, ![256, 56, 56, 30]⟩
abbrev S_ : Shape := ⟨0, ![]⟩

class Facts : Prop where
  bcast_S_S256x56x56x30 : S_.BroadcastsInDim S256x56x56x30 (![] : Fin 0 → Fin S256x56x56x30.rank)
  reducesTo_S256x56x56x30_S_d0_1_2_3 : S256x56x56x30.ReducesTo [0, 1, 2, 3] S_
  h_S_ : 0 < S_.numel

variable [Facts]

def fn {F : FTy → Type} [FloatOps F] (main_arg0 : FVec F S256x56x56x30 .f32) (main_arg1 : FVec F S256x56x56x30 .f32) : IVec S_ 1 :=
  let main_v0 : FVec F S256x56x56x30 .f32 := Host.absf main_arg0
  let main_cst : FVec F S_ .f32 := constant S_ .f32 0x7F800000#32
  let main_v1 : FVec F S256x56x56x30 .f32 := broadcastInDim S256x56x56x30 ![] bcast_S_S256x56x56x30 main_cst
  let main_v2 : IVec S256x56x56x30 1 := cmpf .olt main_v0 main_v1
  let main_c : IVec S_ 1 := constantI S_ 1 1#1
  let main_v3 : IVec S_ 1 := (fun x v => Host.reduce IntOp.andi x v reducesTo_S256x56x56x30_S_d0_1_2_3 h_S_) main_v2 main_c
  let main_v4 : FVec F S256x56x56x30 .f32 := Host.absf main_arg1
  let main_cst_0 : FVec F S_ .f32 := constant S_ .f32 0x7F800000#32
  let main_v5 : FVec F S256x56x56x30 .f32 := broadcastInDim S256x56x56x30 ![] bcast_S_S256x56x56x30 main_cst_0
  let main_v6 : IVec S256x56x56x30 1 := cmpf .olt main_v4 main_v5
  let main_c_1 : IVec S_ 1 := constantI S_ 1 1#1
  let main_v7 : IVec S_ 1 := (fun x v => Host.reduce IntOp.andi x v reducesTo_S256x56x56x30_S_d0_1_2_3 h_S_) main_v6 main_c_1
  let main_v8 : IVec S_ 1 := andi main_v3 main_v7
  main_v8
-- ==== Kernel.lean ====
abbrev S256x56x56x30 : Shape := ⟨4, ![256, 56, 56, 30]⟩
abbrev S1x1 : Shape := ⟨2, ![1, 1]⟩
abbrev S4x56x56x30 : Shape := ⟨4, ![4, 56, 56, 30]⟩
abbrev S4x56x56x1 : Shape := ⟨4, ![4, 56, 56, 1]⟩
abbrev S4x56x56 : Shape := ⟨3, ![4, 56, 56]⟩
abbrev S4x56x56x2 : Shape := ⟨4, ![4, 56, 56, 2]⟩
abbrev S4x56x56x25 : Shape := ⟨4, ![4, 56, 56, 25]⟩
abbrev S4x56 : Shape := ⟨2, ![4, 56]⟩
abbrev S4 : Shape := ⟨1, ![4]⟩
abbrev S4x1 : Shape := ⟨2, ![4, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S256x56x56x30, .f32⟩
  | .hbm, ⟨1, _⟩ => ⟨S256x56x56x30, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S4x56x56x30, .f32⟩
  | .local _ .vmem, ⟨1, _⟩ => ⟨S4x56x56x30, .f32⟩
  | .local _ .vmem, ⟨2, _⟩ => ⟨S4x56x56x30, .f32⟩
  | .local _ .vmem, ⟨3, _⟩ => ⟨S4x56x56x30, .f32⟩
  | .local _ .vmem, ⟨4, _⟩ => ⟨S1x1, .f32⟩
  | .local _ .vmem, ⟨5, _⟩ => ⟨S1x1, .f32⟩
  | _, _ => ⟨S256x56x56x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v56 : BitVec 1 := Scalar.cmpi .eq arg0 c63_i32
  let v57 : BitVec 32 := Scalar.extui v56
  let c0_i32_21 : BitVec 32 := 0#32
  let v58 : BitVec 1 := Scalar.cmpi .ne v57 c0_i32_21
  v58

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x56x56x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x56x56x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x56x56x30_S4x56x56x30_0_0_0_0 : ∀ a, (![0, 0, 0, 0] : Fin 4 → Nat) a + S4x56x56x30.size a ≤ S4x56x56x30.size a
  h_S4x56x56x30 : 0 < S4x56x56x30.numel
  slices_S4x56x56x30_o0_0_0_4_S4x56x56x1 : S4x56x56x30.Slices ![0, 0, 0, 4] S4x56x56x1
  shapeCasts_S4x56x56x1_S4x56x56 : S4x56x56x1.ShapeCasts S4x56x56
  natLt_1_32 : 1 < 32
  slices_S4x56x56x30_o0_0_0_0_S4x56x56x2 : S4x56x56x30.Slices ![0, 0, 0, 0] S4x56x56x2
  reduces_S4x56x56x2_S4x56x56 : S4x56x56x2.Reduces [3] S4x56x56
  slices_S4x56x56x30_o0_0_0_2_S4x56x56x2 : S4x56x56x30.Slices ![0, 0, 0, 2] S4x56x56x2
  slices_S4x56x56x30_o0_0_0_5_S4x56x56x25 : S4x56x56x30.Slices ![0, 0, 0, 5] S4x56x56x25
  reduces_S4x56x56x25_S4x56x56 : S4x56x56x25.Reduces [3] S4x56x56
  reduces_S4x56x56_S4x56 : S4x56x56.Reduces [2] S4x56
  reduces_S4x56_S4 : S4x56.Reduces [1] S4
  shapeCasts_S4_S4x1 : S4.ShapeCasts S4x1
  reduces_S4x1_S1 : S4x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x56x56x30.size a ≤ S256x56x56x30.size a
  hwx0_0 : ∀ i : grid0.Coords, EltTy.bits .f32 = 32 ∨ (Rect.block (s := S256x56x56x30) S4x56x56x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x56x56x30.size a ≤ S256x56x56x30.size a
  hwx0_1 : ∀ i : grid0.Coords, EltTy.bits .f32 = 32 ∨ (Rect.block (s := S256x56x56x30) S4x56x56x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4x56x56x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x56x56x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x56x56x30 : Shape := ⟨4, ![256, 56, 56, 30]⟩
abbrev S256x56x56x1 : Shape := ⟨4, ![256, 56, 56, 1]⟩
abbrev S256x56x56 : Shape := ⟨3, ![256, 56, 56]⟩
abbrev S_ : Shape := ⟨0, ![]⟩
abbrev S256x56x56x2 : Shape := ⟨4, ![256, 56, 56, 2]⟩
abbrev S256x56x56x25 : Shape := ⟨4, ![256, 56, 56, 25]⟩

abbrev nBuf : Space → Nat
  | .hbm => 53
  | .vmem => 0
  | .smem => 0
  | _ => 0

abbrev bufTy : (tb : Table) → Fin (tcTables nBuf tb) → BufTy
  | .hbm, ⟨0, _⟩ => ⟨S256x56x56x30, .f32⟩
  | .hbm, ⟨1, _⟩ => ⟨S256x56x56x30, .f32⟩
  | .hbm, ⟨2, _⟩ => ⟨S256x56x56x1, .f32⟩
  | .hbm, ⟨3, _⟩ => ⟨S256x56x56, .f32⟩
  | .hbm, ⟨4, _⟩ => ⟨S_, .f32⟩
  | .hbm, ⟨5, _⟩ => ⟨S256x56x56, .f32⟩
  | .hbm, ⟨6, _⟩ => ⟨S256x56x56, .i1⟩
  | .hbm, ⟨7, _⟩ => ⟨S256x56x56, .f32⟩
  | .hbm, ⟨8, _⟩ => ⟨S_, .f32⟩
  | .hbm, ⟨9, _⟩ => ⟨S256x56x56, .f32⟩
  | .hbm, ⟨10, _⟩ => ⟨S256x56x56, .f32⟩
  | .hbm, ⟨11, _⟩ => ⟨S256x56x56x2, .f32⟩
  | .hbm, ⟨12, _⟩ => ⟨S256x56x56x2, .f32⟩
  | .hbm, ⟨13, _⟩ => ⟨S256x56x56x2, .f32⟩
  | .hbm, ⟨14, _⟩ => ⟨S256x56x56x2, .f32⟩
  | .hbm, ⟨15, _⟩ => ⟨S_, .f32⟩
  | .hbm, ⟨16, _⟩ => ⟨S256x56x56, .f32⟩
  | .hbm, ⟨17, _⟩ => ⟨S256x56x56x2, .f32⟩
  | .hbm, ⟨18, _⟩ => ⟨S256x56x56x2, .f32⟩
  | .hbm, ⟨19, _⟩ => ⟨S256x56x56x2, .f32⟩
  | .hbm, ⟨20, _⟩ => ⟨S256x56x56x2, .f32⟩
  | .hbm, ⟨21, _⟩ => ⟨S256x56x56x2, .f32⟩
  | .hbm, ⟨22, _⟩ => ⟨S256x56x56x2, .f32⟩
  | .hbm, ⟨23, _⟩ => ⟨S_, .f32⟩
  | .hbm, ⟨24, _⟩ => ⟨S256x56x56, .f32⟩
  | .hbm, ⟨25, _⟩ => ⟨S256x56x56, .f32⟩
  | .hbm, ⟨26, _⟩ => ⟨S_, .f32⟩
  | .hbm, ⟨27, _⟩ => ⟨S256x56x56, .f32⟩
  | .hbm, ⟨28, _⟩ => ⟨S256x56x56, .f32⟩
  | .hbm, ⟨29, _⟩ => ⟨S256x56x56x1, .f32⟩
  | .hbm, ⟨30, _⟩ => ⟨S256x56x56, .f32⟩
  | .hbm, ⟨31, _⟩ => ⟨S256x56x56x1, .f32⟩
  | .hbm, ⟨32, _⟩ => ⟨S256x56x56, .f32⟩
  | .hbm, ⟨33, _⟩ => ⟨S256x56x56, .f32⟩
  | .hbm, ⟨34, _⟩ => ⟨S256x56x56, .f32⟩
  | .hbm, ⟨35, _⟩ => ⟨S256x56x56x25, .f32⟩
  | .hbm, ⟨36, _⟩ => ⟨S256x56x56x25, .f32⟩
  | .hbm, ⟨37, _⟩ => ⟨S256x56x56x25, .f32⟩
  | .hbm, ⟨38, _⟩ => ⟨S256x56x56x25, .f32⟩
  | .hbm, ⟨39, _⟩ => ⟨S_, .f32⟩
  | .hbm, ⟨40, _⟩ => ⟨S256x56x56, .f32⟩
  | .hbm, ⟨41, _⟩ => ⟨S256x56x56, .f32⟩
  | .hbm, ⟨42, _⟩ => ⟨S256x56x56, .f32⟩
  | .hbm, ⟨43, _⟩ => ⟨S256x56x56, .f32⟩
  | .hbm, ⟨44, _⟩ => ⟨S_, .f32⟩
  | .hbm, ⟨45, _⟩ => ⟨S256x56x56, .f32⟩
  | .hbm, ⟨46, _⟩ => ⟨S256x56x56, .f32⟩
  | .hbm, ⟨47, _⟩ => ⟨S256x56x56, .f32⟩
  | .hbm, ⟨48, _⟩ => ⟨S256x56x56, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S256x56x56x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  slices_S256x56x56x30_S256x56x56x1_0_0_0_4 : S256x56x56x30.Slices ![0, 0, 0, 4] S256x56x56x1
  shapeCasts_S256x56x56x1_S256x56x56 : S256x56x56x1.ShapeCasts S256x56x56
  bcast_S_S256x56x56 : S_.BroadcastsInDim S256x56x56 (![] : Fin 0 → Fin S256x56x56.rank)
  slices_S256x56x56x30_S256x56x56x2_0_0_0_0 : S256x56x56x30.Slices ![0, 0, 0, 0] S256x56x56x2
  reducesTo_S256x56x56x2_S256x56x56_d3 : S256x56x56x2.ReducesTo [3] S256x56x56
  h_S_ : 0 < S_.numel
  slices_S256x56x56x30_S256x56x56x2_0_0_0_2 : S256x56x56x30.Slices ![0, 0, 0, 2] S256x56x56x2
  slices_S256x56x56x30_S256x56x56x25_0_0_0_5 : S256x56x56x30.Slices ![0, 0, 0, 5] S256x56x56x25
  reducesTo_S256x56x56x25_S256x56x56_d3 : S256x56x56x25.ReducesTo [3] S256x56x56
  reducesTo_S256x56x56_S_d0_1_2 : S256x56x56.ReducesTo [0, 1, 2] S_

variable [Facts₀]

class Facts : Prop extends Facts₀ where

variable [Facts]
-- ==== Proof.CellLoss.lean ====
/-
  The YOLO loss as mathematics, over the extended reals, with no program in sight.

  A cell is one position (n, i, j) of the 256 x 56 x 56 grid of cells; it has 30 predicted channels p and 30 target
  channels q. Its loss is

      obj * ( 5 * ( sum_{d<2} (p_d - q_d)^2 + sum_{d in 2..3} (sqrt p_d - sqrt q_d)^2 ) + (p_4 - q_4)^2
                + sum_{d in 5..29} (p_d - q_d)^2 )
        + (1 - obj) * ( 1/2 * (p_4 - q_4)^2 ),

  where obj is 1 when the target's channel 4 equals 1 and 0 otherwise. The total loss is the sum of the cell losses
  over every cell, divided by 256.

  The sum over the 256 batch entries is also the sum, over the 64 consecutive groups of four batch entries, of each
  group's sum (`batchSum_blocks`): addition of extended reals is commutative and associative, infinities included,
  so the regrouping needs no finiteness.
-/
import Idealize.ShloMosaic.PureOps.Ideal
import Idealize.ShloMosaic.PureOps.Ideal.Laws
import Idealize.ShloMosaic.Lib.ValueIdx

noncomputable section

open scoped BigOperators

namespace Cert.CellLoss

open Idealize.ShloMosaic Idealize.ShloMosaic.ValueIdx

/-- The square of a difference. -/
def sqDiff (a b : EReal) : EReal := (a - b) * (a - b)

/-- The object indicator of a cell: 1 when the target's channel 4 is exactly 1, else 0 (the comparison's bit read as a
    natural number). -/
def objMask (q : Fin 30 → EReal) : EReal :=
  (((Ideal.cmp .oeq (q 4) (Ideal.ofBits .f32 0x3F800000#32)).toNat : ℝ) : EReal)

/-- One cell's loss from its 30 predicted and 30 target channels. -/
def cellLoss (p q : Fin 30 → EReal) : EReal :=
  objMask q *
      ((Ideal.ofBits .f32 0x40A00000#32 *
            ((∑ k : Fin 2, sqDiff (p ⟨k.val, by have := k.isLt; omega⟩) (q ⟨k.val, by have := k.isLt; omega⟩))
              + ∑ k : Fin 2, sqDiff (Ideal.sqrt (p ⟨2 + k.val, by have := k.isLt; omega⟩))
                  (Ideal.sqrt (q ⟨2 + k.val, by have := k.isLt; omega⟩)))
          + sqDiff (p 4) (q 4))
        + ∑ k : Fin 25, sqDiff (p ⟨5 + k.val, by have := k.isLt; omega⟩) (q ⟨5 + k.val, by have := k.isLt; omega⟩))
    + (Ideal.ofBits .f32 0x3F800000#32 - objMask q) * (Ideal.ofBits .f32 0x3F000000#32 * sqDiff (p 4) (q 4))

/-- The 30 channels of cell (n, i, j) of an array of B batch entries. -/
def chan {B : Nat} (x : (⟨4, ![B, 56, 56, 30]⟩ : Shape).Idx → EReal) (n : Fin B) (i j : Fin 56) : Fin 30 → EReal :=
  fun d => x (ix4 n i j d)

/-- The sum of the cell losses over every cell of a pair of arrays of B batch entries. -/
def batchSum {B : Nat} (x0 x1 : (⟨4, ![B, 56, 56, 30]⟩ : Shape).Idx → EReal) : EReal :=
  ∑ n : Fin B, ∑ i : Fin 56, ∑ j : Fin 56, cellLoss (chan x0 n i j) (chan x1 n i j)

/-- The t-th group of four consecutive batch entries of an array of 256. -/
def blockOf (x : (⟨4, ![256, 56, 56, 30]⟩ : Shape).Idx → EReal) (t : Fin 64) :
    (⟨4, ![4, 56, 56, 30]⟩ : Shape).Idx → EReal :=
  fun y => x (ix4 (⟨4 * t.val + (y 0).val, by have := t.isLt; have h0 : (y 0).val < 4 := (y 0).isLt; omega⟩ : Fin 256) (y 1) (y 2) (y 3))

/-- A rank-3 index set is the product of its three coordinate ranges. -/
def idxEquiv3 {n0 n1 n2 : Nat} : (⟨3, ![n0, n1, n2]⟩ : Shape).Idx ≃ Fin n0 × Fin n1 × Fin n2 where
  toFun y := (y 0, y 1, y 2)
  invFun p := ix3 p.1 p.2.1 p.2.2
  left_inv y := (eq_ix3 y).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ y, f y = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over 256 batch entries is the sum over 64 groups of the sums over each group's four entries. -/
theorem sum_groups_of_four {M : Type*} [AddCommMonoid M] (g : Fin 256 → M) :
    ∑ n, g n = ∑ t : Fin 64, ∑ b : Fin 4,
      g ⟨4 * t.val + b.val, by have := t.isLt; have := b.isLt; omega⟩ := by
  rw [← Equiv.sum_comp (finProdFinEquiv : Fin 64 × Fin 4 ≃ Fin 256) g, Fintype.sum_prod_type]
  refine Finset.sum_congr rfl fun t _ => Finset.sum_congr rfl fun b _ => congrArg g (Fin.ext ?_)
  show b.val + 4 * t.val = 4 * t.val + b.val
  omega

/-- The channels of a cell of the t-th group are the channels of that cell in the whole array. -/
theorem chan_blockOf (x : (⟨4, ![256, 56, 56, 30]⟩ : Shape).Idx → EReal) (t : Fin 64) (b : Fin 4) (i j : Fin 56) :
    chan (blockOf x t) b i j
      = chan x (⟨4 * t.val + b.val, by have := t.isLt; have := b.isLt; omega⟩ : Fin 256) i j := rfl

/-- THE REGROUPING: the total over all 256 batch entries is the sum of the 64 groups' totals. -/
theorem batchSum_blocks (x0 x1 : (⟨4, ![256, 56, 56, 30]⟩ : Shape).Idx → EReal) :
    batchSum x0 x1 = ∑ t : Fin 64, batchSum (blockOf x0 t) (blockOf x1 t) := by
  unfold batchSum
  rw [sum_groups_of_four]
  refine Finset.sum_congr rfl fun t _ => Finset.sum_congr rfl fun b _ => ?_
  simp only [chan_blockOf]

/-- The whole loss: the total over every cell, divided by the 256 batch entries (the host's division). -/
def meanLoss (x0 x1 : (⟨4, ![256, 56, 56, 30]⟩ : Shape).Idx → EReal) : (⟨0, ![]⟩ : Shape).Idx → EReal :=
  fun _ => Ideal.div (batchSum x0 x1) (Ideal.ofBits .f32 0x43800000#32)

end Cert.CellLoss

end
-- ==== Proof.RefLoss.lean ====
/-
  The reference's result, read index by index, is the mean cell loss of its two arguments.

  Every operation of the reference acts on one cell at a time until the last sum: at cell (n, i, j) the slices pick the
  channels 0..1, 2..3, 4 and 5..29 of the two arrays at that cell, the reshapes of the channel-4 slices change nothing but
  the index's spelling, and the three sums over the last axis are the sums over those channels, each started from 0. So
  the array that is summed holds, at each cell, the cell loss of that cell's 30 + 30 channels (`cell_eq`). The last sum
  runs over every cell, and the result is its quotient by 256 (`result_eq`).
-/
import proofs.«181439_j23089744183399_2_alg».proof.Proof.Gen.ReferenceIdeal.Read
import proofs.«181439_j23089744183399_2_alg».proof.Proof.CellLoss
import Idealize.ShloMosaic.PureOps.Ideal.Laws
import Idealize.ShloMosaic.Lib.ValueIdx

noncomputable section

open scoped BigOperators

namespace Cert.ReferenceIdeal.RefLoss

open Cert.ReferenceIdeal Cert.ReferenceIdeal.Read Cert.CellLoss Idealize.ShloMosaic Idealize.ShloMosaic.ValueIdx

/-! ## Where each slice reads: channel d of the same cell -/

theorem idx_obj (i : S256x56x56.Idx) : idx_main_v0 (idx_main_v1 i) = ix4 (i 0) (i 1) (i 2) (4 : Fin 30) := by
  have h0 : (i 0).val < 256 := (i 0).isLt
  have h1 : (i 1).val < 56 := (i 1).isLt
  have h2 : (i 2).val < 56 := (i 2).isLt
  funext a
  apply Fin.ext
  match a with
  | ⟨0, _⟩ => show (((i 0).val * 56 + (i 1).val) * 56 + (i 2).val) / 3136 = (i 0).val; omega
  | ⟨1, _⟩ => show (((i 0).val * 56 + (i 1).val) * 56 + (i 2).val) / 56 % 56 = (i 1).val; omega
  | ⟨2, _⟩ => show (((i 0).val * 56 + (i 1).val) * 56 + (i 2).val) / 1 % 56 = (i 2).val; omega
  | ⟨3, _⟩ => rfl

theorem idx_conf_p (i : S256x56x56.Idx) : idx_main_v22 (idx_main_v23 i) = ix4 (i 0) (i 1) (i 2) (4 : Fin 30) := by
  have h0 : (i 0).val < 256 := (i 0).isLt
  have h1 : (i 1).val < 56 := (i 1).isLt
  have h2 : (i 2).val < 56 := (i 2).isLt
  funext a
  apply Fin.ext
  match a with
  | ⟨0, _⟩ => show (((i 0).val * 56 + (i 1).val) * 56 + (i 2).val) / 3136 = (i 0).val; omega
  | ⟨1, _⟩ => show (((i 0).val * 56 + (i 1).val) * 56 + (i 2).val) / 56 % 56 = (i 1).val; omega
  | ⟨2, _⟩ => show (((i 0).val * 56 + (i 1).val) * 56 + (i 2).val) / 1 % 56 = (i 2).val; omega
  | ⟨3, _⟩ => rfl

theorem idx_conf_q (i : S256x56x56.Idx) : idx_main_v24 (idx_main_v25 i) = ix4 (i 0) (i 1) (i 2) (4 : Fin 30) := by
  have h0 : (i 0).val < 256 := (i 0).isLt
  have h1 : (i 1).val < 56 := (i 1).isLt
  have h2 : (i 2).val < 56 := (i 2).isLt
  funext a
  apply Fin.ext
  match a with
  | ⟨0, _⟩ => show (((i 0).val * 56 + (i 1).val) * 56 + (i 2).val) / 3136 = (i 0).val; omega
  | ⟨1, _⟩ => show (((i 0).val * 56 + (i 1).val) * 56 + (i 2).val) / 56 % 56 = (i 1).val; omega
  | ⟨2, _⟩ => show (((i 0).val * 56 + (i 1).val) * 56 + (i 2).val) / 1 % 56 = (i 2).val; omega
  | ⟨3, _⟩ => rfl

theorem idx_xy_p (i : S256x56x56.Idx) (k : Fin 2) :
    idx_main_v7 (idx_main_v11 i k) = ix4 (i 0) (i 1) (i 2) (⟨k.val, by have := k.isLt; omega⟩ : Fin 30) := by
  funext a
  apply Fin.ext
  match a with
  | ⟨0, _⟩ => rfl
  | ⟨1, _⟩ => rfl
  | ⟨2, _⟩ => rfl
  | ⟨3, _⟩ => rfl

theorem idx_xy_q (i : S256x56x56.Idx) (k : Fin 2) :
    idx_main_v8 (idx_main_v11 i k) = ix4 (i 0) (i 1) (i 2) (⟨k.val, by have := k.isLt; omega⟩ : Fin 30) := by
  funext a
  apply Fin.ext
  match a with
  | ⟨0, _⟩ => rfl
  | ⟨1, _⟩ => rfl
  | ⟨2, _⟩ => rfl
  | ⟨3, _⟩ => rfl

theorem idx_wh_p (i : S256x56x56.Idx) (k : Fin 2) :
    idx_main_v12 (idx_main_v18 i k) = ix4 (i 0) (i 1) (i 2) (⟨2 + k.val, by have := k.isLt; omega⟩ : Fin 30) := by
  funext a
  apply Fin.ext
  match a with
  | ⟨0, _⟩ => rfl
  | ⟨1, _⟩ => rfl
  | ⟨2, _⟩ => rfl
  | ⟨3, _⟩ => rfl

theorem idx_wh_q (i : S256x56x56.Idx) (k : Fin 2) :
    idx_main_v14 (idx_main_v18 i k) = ix4 (i 0) (i 1) (i 2) (⟨2 + k.val, by have := k.isLt; omega⟩ : Fin 30) := by
  funext a
  apply Fin.ext
  match a with
  | ⟨0, _⟩ => rfl
  | ⟨1, _⟩ => rfl
  | ⟨2, _⟩ => rfl
  | ⟨3, _⟩ => rfl

theorem idx_cls_p (i : S256x56x56.Idx) (k : Fin 25) :
    idx_main_v28 (idx_main_v32 i k) = ix4 (i 0) (i 1) (i 2) (⟨5 + k.val, by have := k.isLt; omega⟩ : Fin 30) := by
  funext a
  apply Fin.ext
  match a with
  | ⟨0, _⟩ => rfl
  | ⟨1, _⟩ => rfl
  | ⟨2, _⟩ => rfl
  | ⟨3, _⟩ => rfl

theorem idx_cls_q (i : S256x56x56.Idx) (k : Fin 25) :
    idx_main_v29 (idx_main_v32 i k) = ix4 (i 0) (i 1) (i 2) (⟨5 + k.val, by have := k.isLt; omega⟩ : Fin 30) := by
  funext a
  apply Fin.ext
  match a with
  | ⟨0, _⟩ => rfl
  | ⟨1, _⟩ => rfl
  | ⟨2, _⟩ => rfl
  | ⟨3, _⟩ => rfl

/-- A one-bit word converted to a float, read unsigned, is the bit as a number. -/
theorem uitofp_bit (b : BitVec 1) : FloatOps.uitofp (F := Ideal) .f32 b = (((b.toNat : ℝ)) : EReal) := rfl

/-! ## The summed array at a cell is that cell's loss -/

theorem cell_eq (x0 x1 : (⟨S256x56x56x30, .f32⟩ : BufTy).Contents (Elt Ideal)) (i : S256x56x56.Idx) :
    val_main_v39 (F := Ideal) x0 x1 i = cellLoss (chan x0 (i 0) (i 1) (i 2)) (chan x1 (i 0) (i 1) (i 2)) := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_v10_apply, val_main_cst_1_apply, val_main_v11_apply, val_main_v12_apply, val_main_v13_apply, val_main_v14_apply, val_main_v15_apply, val_main_v16_apply, val_main_v17_apply, val_main_cst_2_apply, val_main_v18_apply, val_main_v19_apply, val_main_cst_3_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_cst_4_apply, val_main_v32_apply, val_main_v33_apply, val_main_v34_apply, val_main_v35_apply, val_main_cst_5_apply, val_main_v36_apply, val_main_v37_apply, val_main_v38_apply, val_main_v39_apply]
  simp only [idx_obj, idx_conf_p, idx_conf_q, idx_xy_p, idx_xy_q, idx_wh_p, idx_wh_q, idx_cls_p, idx_cls_q]
  simp only [Ideal.addf_def, Ideal.mulf_def, Ideal.subf_def, Ideal.ofBits_def, Ideal.hostUnary_sqrt_def, Ideal.cmpf_def,
    uitofp_bit, Ideal.ofBits_zero_f32, zero_add]
  rfl

/-! ## The result: the sum over every cell, divided by 256 -/

theorem result_eq (x0 x1 : (⟨S256x56x56x30, .f32⟩ : BufTy).Contents (Elt Ideal)) :
    val_main_v41 (F := Ideal) x0 x1 = meanLoss x0 x1 := by
  funext i
  rw [val_main_v41_apply, val_main_v40_apply, val_main_cst_6_apply, val_main_cst_7_apply]
  simp only [cell_eq]
  rw [sum_idx3]
  simp only [Ideal.hostDivf_def, Ideal.ofBits_def, Ideal.ofBits_zero_f32, zero_add]
  rfl

end Cert.ReferenceIdeal.RefLoss

end
-- ==== Proof.Pieces.lean ====
/-
  What each case of the kernel body leaves behind, as values.

  The body has three cases. At the first grid point it stores zero into the accumulator, reads it back, and stores
  zero plus the point's contribution. At the points in between it reads the accumulator the point before left and stores
  it plus the point's contribution. At the last point it does the same and then copies the accumulator into the output
  block. In every case the accumulator ends at one and the same term of the two input blocks and the accumulator's
  previous contents (zero at the first point): the store's payload, with each load of a whole buffer read as that
  buffer's contents, and a load that follows a store read as the value stored.
-/
import proofs.«181439_j23089744183399_2_alg».proof.Proof.Gen.KernelIdeal.Frame
import Idealize.ShloMosaic.Lib.Pipeline.Value
import Idealize.ShloMosaic.Lib.Tactic

noncomputable section
namespace Cert.KernelIdeal.Pieces
open Cert.KernelIdeal Cert.KernelIdeal.Gen Idealize.ShloMosaic Idealize.ShloMosaic.TcCoe Idealize.SL.Sem
variable {F : FTy → Type} [FloatOps F]

/-- The offsets of a whole-buffer access are all zero. -/
theorem hz : (![0, 0] : Fin 2 → Nat) = fun _ => 0 := funext fun a => by fin_cases a <;> rfl

theorem hz4 : (![0, 0, 0, 0] : Fin 4 → Nat) = fun _ => 0 := funext fun a => by fin_cases a <;> rfl

/-- The points in between: the accumulator ends at the payload over the blocks and its previous contents. -/
theorem scratch_B (c : Dev nD) (i : grid0.Coords) (arg1 : Memref sig .tc .vmem S4x56x56x30 .f32) (harg1 : arg1.IsWhole) (arg2 : Memref sig .tc .vmem S4x56x56x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S4x56x56x30 .f32) (xs0 : Vec F S1x1 .f32) :
    sout0_B_0 c i arg1 harg1 arg2 harg2 arg3 harg3 arg4 harg4 hc0 hc1 x0 x1 xs0 = k0_pay1 (k0_pay4 x1) (k0_pay5 x0 x1) (k0_pay6 x0 x1) xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S1x1) hz,
    View.ld_unit_zero (S := S4x56x56x30) hz4]

/-- The first point: the accumulator ends at the payload over the blocks and the zero just stored. -/
theorem scratch_A (c : Dev nD) (i : grid0.Coords) (arg1 : Memref sig .tc .vmem S4x56x56x30 .f32) (harg1 : arg1.IsWhole) (arg2 : Memref sig .tc .vmem S4x56x56x30 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S4x56x56x30 .f32) :
    sout0_A_0 c i arg1 harg1 arg2 harg2 arg3 harg3 arg4 harg4 hc0 hc1 x0 x1 = k0_pay1 (k0_pay4 x1) (k0_pay5 x0 x1) (k0_pay6 x0 x1) (k0_pay2 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, View.ld_unit_zero (S := S1x1) hz,
    View.ld_unit_zero (S := S4x56x56x30) hz4]

/-- The last point: the accumulator ends as at the points in between. -/
theorem scratch_C (c : Dev nD) (i : grid0.Coords) (arg1 : Memref sig .tc .vmem S4x56x56x30 .f32) (harg1 : arg1.IsWhole) (arg2 : Memref sig .tc .vmem S4x56x56x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S4x56x56x30 .f32) (xs0 : Vec F S1x1 .f32) :
    sout0_C_0 c i arg1 harg1 arg2 harg2 arg3 harg3 arg4 harg4 hc0 hc1 x0 x1 xs0 = k0_pay1 (k0_pay4 x1) (k0_pay5 x0 x1) (k0_pay6 x0 x1) xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S1x1) hz,
    View.ld_unit_zero (S := S4x56x56x30) hz4]

/-- The last point: the output block is a copy of the accumulator just stored. -/
theorem out_C (c : Dev nD) (i : grid0.Coords) (arg1 : Memref sig .tc .vmem S4x56x56x30 .f32) (harg1 : arg1.IsWhole) (arg2 : Memref sig .tc .vmem S4x56x56x30 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S4x56x56x30 .f32) (xs0 : Vec F S1x1 .f32) :
    out0_C_2 c i arg1 harg1 arg2 harg2 arg3 harg3 arg4 harg4 hc0 hc1 x0 x1 xs0 = k0_pay1 (k0_pay4 x1) (k0_pay5 x0 x1) (k0_pay6 x0 x1) xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S1x1) hz,
    View.ld_unit_zero (S := S4x56x56x30) hz4, View.readCov_unit_zero (S := S1x1) _ hz]

end Cert.KernelIdeal.Pieces
end
-- ==== Proof.BlockLoss.lean ====
/-
  What one grid point adds to the accumulator: the sum of the cell losses of its block.

  At a grid point the kernel holds a block of four batch entries of each array. Cell by cell it forms the same term the
  reference forms: the channel slices 0..1, 2..3, 4 and 5..29 read that cell's channels, the three sums over the last axis
  are the sums over those channels, and the object indicator, converted from the comparison's bit through a 32-bit
  integer, is the bit as a number. So the array it then sums holds at each cell that cell's loss (`cell_at`). It sums
  that array over the columns, then the rows, then the four batch entries, and adds the result to the accumulator:
  the stored accumulator is the old one plus the block's total (`pay1_eq`).
-/
import proofs.«181439_j23089744183399_2_alg».proof.Proof.Gen.KernelIdeal.Skeleton
import proofs.«181439_j23089744183399_2_alg».proof.Proof.CellLoss
import Idealize.ShloMosaic.Lib.Pipeline.Value
import Idealize.ShloMosaic.Lib.ValueIdx
import Idealize.ShloMosaic.PureOps.Ideal.Laws

noncomputable section

open scoped BigOperators

namespace Cert.KernelIdeal.BlockLoss

open Cert.KernelIdeal Cert.KernelIdeal.Gen Cert.CellLoss Idealize.ShloMosaic Idealize.ShloMosaic.ValueIdx

/-! ## Layout operations at a cell -/

/-- Channel k of a slice of the channel axis that starts at channel o is channel o + k of the same cell. -/
theorem slice_at {w : Nat} (off : Fin 4 → Nat) (o : Nat) (hoff : off = ![0, 0, 0, o]) (x : FVec Ideal S4x56x56x30 .f32)
    (h : S4x56x56x30.Slices off (⟨4, ![4, 56, 56, w]⟩ : Shape)) (b : Fin 4) (i j : Fin 56) (k : Fin w) (d : Fin 30)
    (hd : d.val = o + k.val) :
    extractStridedSlice (⟨4, ![4, 56, 56, w]⟩ : Shape) off x h (ix4 b i j k) = x (ix4 b i j d) := by
  subst hoff
  refine extractStridedSlice_apply _ x h (ix4 b i j k) (ix4 b i j d) fun a => ?_
  match a with
  | ⟨0, _⟩ => show b.val = 0 + b.val; omega
  | ⟨1, _⟩ => show i.val = 0 + i.val; omega
  | ⟨2, _⟩ => show j.val = 0 + j.val; omega
  | ⟨3, _⟩ => show d.val = o + k.val; exact hd

/-- Dropping the trailing unit axis keeps the cell. -/
theorem drop_unit_at (v : FVec Ideal S4x56x56x1 .f32) (h : S4x56x56x1.ShapeCasts S4x56x56) (b : Fin 4) (i j : Fin 56) :
    shapeCast S4x56x56 v h (ix3 b i j) = v (ix4 b i j (0 : Fin 1)) := by
  refine shapeCast_apply v h (ix3 b i j) (ix4 b i j (0 : Fin 1)) ?_
  rw [Shape.rowMajor_val_four, Shape.rowMajor_val_three]
  show ((b.val * 56 + i.val) * 56 + j.val) * 1 + 0 = (b.val * 56 + i.val) * 56 + j.val
  omega

/-- The one-channel slice at channel 4 with its unit axis dropped reads channel 4 of the cell. -/
theorem chan4_at (x : FVec Ideal S4x56x56x30 .f32) (hs : S4x56x56x30.Slices ![0, 0, 0, 4] S4x56x56x1)
    (hc : S4x56x56x1.ShapeCasts S4x56x56) (b : Fin 4) (i j : Fin 56) :
    shapeCast S4x56x56 (extractStridedSlice S4x56x56x1 ![0, 0, 0, 4] x hs) hc (ix3 b i j) = x (ix4 b i j (4 : Fin 30)) :=
  (drop_unit_at _ hc b i j).trans (slice_at ![0, 0, 0, 4] 4 rfl x hs b i j (0 : Fin 1) (4 : Fin 30) rfl)

/-- A sum over the channel axis of a block with w channels, at a cell: the sum over the cell's w channels. -/
theorem sum_last {w : Nat} (v : FVec Ideal (⟨4, ![4, 56, 56, w]⟩ : Shape) .f32)
    (h : (⟨4, ![4, 56, 56, w]⟩ : Shape).Reduces [3] S4x56x56) (hφ : FKind.Formats .f32)
    (hacc : (0x00000000#32 : BitVec 32) = FKind.add.neutral .f32 hφ) (b : Fin 4) (i j : Fin 56) :
    multiReduction .add [3] S4x56x56 v 0x00000000#32 h hφ hacc (ix3 b i j) = ∑ k : Fin w, v (ix4 b i j k) :=
  (Ideal.multiReduction_add_single v _ h hφ hacc (ix3 b i j)).trans
    (Finset.sum_congr rfl fun k _ => congrArg v (funext fun a => Fin.ext (by
      match a with
      | ⟨0, _⟩ => rfl
      | ⟨1, _⟩ => rfl
      | ⟨2, _⟩ => rfl
      | ⟨3, _⟩ => rfl)))

/-- The same at the two widths the kernel sums over, spelled with the block's own shape names. -/
theorem sum_last2 (v : FVec Ideal S4x56x56x2 .f32) (h : S4x56x56x2.Reduces [3] S4x56x56)
    (hφ : FTy.f32 = FTy.f32 ∨ FTy.f32 = FTy.bf16) (hacc : (0x00000000#32 : BitVec 32) = 0x00000000#32) (b : Fin 4) (i j : Fin 56) :
    multiReduction .add [3] S4x56x56 v 0x00000000#32 h hφ hacc (ix3 b i j) = ∑ k : Fin 2, v (ix4 b i j k) :=
  sum_last (w := 2) v h hφ hacc b i j
theorem sum_last25 (v : FVec Ideal S4x56x56x25 .f32) (h : S4x56x56x25.Reduces [3] S4x56x56)
    (hφ : FTy.f32 = FTy.f32 ∨ FTy.f32 = FTy.bf16) (hacc : (0x00000000#32 : BitVec 32) = 0x00000000#32) (b : Fin 4) (i j : Fin 56) :
    multiReduction .add [3] S4x56x56 v 0x00000000#32 h hφ hacc (ix3 b i j) = ∑ k : Fin 25, v (ix4 b i j k) :=
  sum_last (w := 25) v h hφ hacc b i j

/-- The three channel ranges the kernel slices: channels 0..1, 2..3 and 5..29 of the cell. -/
theorem slice_xy (x : FVec Ideal S4x56x56x30 .f32) (h : S4x56x56x30.Slices ![0, 0, 0, 0] S4x56x56x2) (b : Fin 4) (i j : Fin 56)
    (k : Fin 2) : extractStridedSlice S4x56x56x2 ![0, 0, 0, 0] x h (ix4 b i j k)
      = x (ix4 b i j (⟨k.val, by have := k.isLt; omega⟩ : Fin 30)) :=
  slice_at (w := 2) ![0, 0, 0, 0] 0 rfl x h b i j k _ (by show k.val = 0 + k.val; omega)
theorem slice_wh (x : FVec Ideal S4x56x56x30 .f32) (h : S4x56x56x30.Slices ![0, 0, 0, 2] S4x56x56x2) (b : Fin 4) (i j : Fin 56)
    (k : Fin 2) : extractStridedSlice S4x56x56x2 ![0, 0, 0, 2] x h (ix4 b i j k)
      = x (ix4 b i j (⟨2 + k.val, by have := k.isLt; omega⟩ : Fin 30)) :=
  slice_at (w := 2) ![0, 0, 0, 2] 2 rfl x h b i j k _ rfl
theorem slice_cls (x : FVec Ideal S4x56x56x30 .f32) (h : S4x56x56x30.Slices ![0, 0, 0, 5] S4x56x56x25) (b : Fin 4) (i j : Fin 56)
    (k : Fin 25) : extractStridedSlice S4x56x56x25 ![0, 0, 0, 5] x h (ix4 b i j k)
      = x (ix4 b i j (⟨5 + k.val, by have := k.isLt; omega⟩ : Fin 30)) :=
  slice_at (w := 25) ![0, 0, 0, 5] 5 rfl x h b i j k _ rfl

/-- The square root of a vector, at an index. -/
theorem sqrt_at {s : Shape} (v : FVec Ideal s .f32) (y : s.Idx) : sqrt v y = Ideal.sqrt (v y) := rfl

/-- A scalar literal at the extended reals is the literal's value. -/
theorem scalar_lit (w : BitVec 32) : Scalar.ofBits (F := Ideal) .f32 w = Ideal.ofBits .f32 w := rfl

/-- A one-bit word widened to 32 bits and converted as a signed integer is the bit as a number: 0 or 1, never -1. -/
theorem bit_at (c : BitVec 1) :
    FloatOps.sitofp (F := Ideal) .f32 (BitVec.setWidth 32 c) = (((c.toNat : ℝ)) : EReal) := by
  have hc : c = 0#1 ∨ c = 1#1 := by
    by_cases h : c = 1#1
    · exact Or.inr h
    · exact Or.inl (eq_zero_of_ne_one h)
  rcases hc with rfl | rfl
  · have e : (BitVec.setWidth 32 (0#1)).toInt = 0 := by decide
    show ((((BitVec.setWidth 32 (0#1)).toInt : ℝ)) : EReal) = ((((0#1 : BitVec 1).toNat : ℝ)) : EReal)
    rw [e]; simp
  · have e : (BitVec.setWidth 32 (1#1)).toInt = 1 := by decide
    show ((((BitVec.setWidth 32 (1#1)).toInt : ℝ)) : EReal) = ((((1#1 : BitVec 1).toNat : ℝ)) : EReal)
    rw [e]; simp

/-! ## The summed array at a cell is that cell's loss -/

/-- The array the kernel sums, at cell (b, i, j) of the block: the cell loss of that cell's channels. -/
theorem cell_at (x0 x1 : FVec Ideal S4x56x56x30 .f32) (b : Fin 4) (i j : Fin 56) :
    addf (k0_pay6 (F := Ideal) x0 x1)
        (mulf (k0_pay4 (F := Ideal) x1)
          (mulf (broadcast S4x56x56 (Scalar.ofBits (F := Ideal) .f32 0x3F000000#32)) (k0_pay5 (F := Ideal) x0 x1))) (ix3 b i j)
      = cellLoss (chan x0 b i j) (chan x1 b i j) := by
  unfold k0_pay6 k0_pay5 k0_pay4 k0_pay3
  simp only [addf_apply, mulf_apply, subf_apply, broadcast_apply, sitofp_apply, extui_apply, cmpf_apply, sum_last2, sum_last25, sqrt_at,
    chan4_at, scalar_lit, bit_at]
  rw [sum_last2, sum_last2, sum_last25]
  simp only [mulf_apply, subf_apply, sqrt_at, slice_xy, slice_wh, slice_cls, Ideal.cmpf_def]
  rfl

/-! ## The block total -/

/-- The sum over the columns of a row of cells. -/
theorem sum_cols (v : FVec Ideal S4x56x56 .f32) (h : S4x56x56.Reduces [2] S4x56)
    (hφ : FTy.f32 = FTy.f32 ∨ FTy.f32 = FTy.bf16) (hacc : (0x00000000#32 : BitVec 32) = 0x00000000#32) (b : Fin 4) (i : Fin 56) :
    multiReduction .add [2] S4x56 v 0x00000000#32 h hφ hacc (ix2 b i) = ∑ j : Fin 56, v (ix3 b i j) :=
  (Ideal.multiReduction_add_single v _ h hφ hacc (ix2 b i)).trans
    (Finset.sum_congr rfl fun k _ => congrArg v (funext fun a => Fin.ext (by
      match a with
      | ⟨0, _⟩ => rfl
      | ⟨1, _⟩ => rfl
      | ⟨2, _⟩ => rfl)))

/-- The sum over the rows of a batch entry. -/
theorem sum_rows (v : FVec Ideal S4x56 .f32) (h : S4x56.Reduces [1] S4)
    (hφ : FTy.f32 = FTy.f32 ∨ FTy.f32 = FTy.bf16) (hacc : (0x00000000#32 : BitVec 32) = 0x00000000#32) (b : Fin 4) :
    multiReduction .add [1] S4 v 0x00000000#32 h hφ hacc (ix1 b) = ∑ i : Fin 56, v (ix2 b i) :=
  (Ideal.multiReduction_add_single v _ h hφ hacc (ix1 b)).trans
    (Finset.sum_congr rfl fun k _ => congrArg v (funext fun a => Fin.ext (by
      match a with
      | ⟨0, _⟩ => rfl
      | ⟨1, _⟩ => rfl)))

/-- The sum over the block's four batch entries. -/
theorem sum_batch (v : FVec Ideal S4x1 .f32) (h : S4x1.Reduces [0] S1)
    (hφ : FTy.f32 = FTy.f32 ∨ FTy.f32 = FTy.bf16) (hacc : (0x00000000#32 : BitVec 32) = 0x00000000#32) :
    multiReduction .add [0] S1 v 0x00000000#32 h hφ hacc (ix1 (0 : Fin 1)) = ∑ b : Fin 4, v (ix2 b (0 : Fin 1)) :=
  (Ideal.multiReduction_add_single v _ h hφ hacc (ix1 (0 : Fin 1))).trans
    (Finset.sum_congr rfl fun k _ => congrArg v (funext fun a => Fin.ext (by
      match a with
      | ⟨0, _⟩ => rfl
      | ⟨1, _⟩ => rfl)))

/-- A vector of four read as a column of four. -/
theorem col_of_vec (v : FVec Ideal S4 .f32) (h : S4.ShapeCasts S4x1) (b : Fin 4) :
    shapeCast S4x1 v h (ix2 b (0 : Fin 1)) = v (ix1 b) := by
  refine shapeCast_apply v h (ix2 b (0 : Fin 1)) (ix1 b) ?_
  rw [Shape.rowMajor_val_one, Shape.rowMajor_val_two]
  show b.val = b.val * 1 + 0
  omega

/-- A vector of one read as a one by one array. -/
theorem one_of_vec (v : FVec Ideal S1 .f32) (h : S1.ShapeCasts S1x1) (y : S1x1.Idx) :
    shapeCast S1x1 v h y = v (ix1 (0 : Fin 1)) := by
  refine shapeCast_apply v h y (ix1 (0 : Fin 1)) ?_
  rw [Shape.rowMajor_val_one, Shape.rowMajor_val_two]
  have h0 : (y 0).val < 1 := (y 0).isLt
  have h1 : (y 1).val < 1 := (y 1).isLt
  show 0 = (y 0).val * 1 + (y 1).val
  omega

/-- THE POINT'S CONTRIBUTION: what the kernel stores into the accumulator is the accumulator it loaded plus the sum of the
    cell losses over the block's cells. -/
theorem pay1_eq (x0 x1 : FVec Ideal S4x56x56x30 .f32) (acc : FVec Ideal S1x1 .f32) :
    k0_pay1 (F := Ideal) (k0_pay4 (F := Ideal) x1) (k0_pay5 (F := Ideal) x0 x1) (k0_pay6 (F := Ideal) x0 x1) acc
      = fun y => acc y + batchSum x0 x1 := by
  funext y
  unfold k0_pay1
  dsimp only
  refine (congrFun (shapeCast_self _ _) y).trans ?_
  rw [addf_apply]
  refine congrArg (acc y + ·) ?_
  refine (one_of_vec _ _ y).trans ((sum_batch _ _ _ _).trans (Finset.sum_congr rfl fun b _ => ?_))
  refine (col_of_vec _ _ b).trans ((sum_rows _ _ _ _ b).trans (Finset.sum_congr rfl fun i _ => ?_))
  refine (sum_cols _ _ _ _ b i).trans (Finset.sum_congr rfl fun j _ => ?_)
  exact cell_at x0 x1 b i j

end Cert.KernelIdeal.BlockLoss

end
-- ==== Proof.Accum.lean ====
/-
  The accumulator across the grid: after point n it holds the sum of the contributions of the points 0..n.

  The contribution of a point is the sum of the cell losses over the cells of the blocks it holds. The first point
  stores zero plus its contribution; every later point stores what the point before left plus its own. So by induction
  on the point the accumulator holds the running total, and at the last point the output block, a copy of the
  accumulator, holds the total over all 64 points.
-/
import proofs.«181439_j23089744183399_2_alg».proof.Proof.Pieces
import proofs.«181439_j23089744183399_2_alg».proof.Proof.BlockLoss

noncomputable section

open scoped BigOperators

namespace Cert.KernelIdeal.Accum

open Cert.KernelIdeal Cert.KernelIdeal.Gen Cert.KernelIdeal.Pieces Cert.KernelIdeal.BlockLoss Cert.CellLoss
open Idealize.ShloMosaic Idealize.ShloMosaic.TcCoe Idealize.SL.Sem

variable (m : (ℓ : Loc nD τ sig) → Buf (Elt Ideal) ℓ)

/-- The blocks of the predictions and of the targets the kernel holds at point t. -/
abbrev pblk (c : Dev nD) (t : Fin cfg0.N) : FVec Ideal S4x56x56x30 .f32 := iblk m c 0 t
abbrev qblk (c : Dev nD) (t : Fin cfg0.N) : FVec Ideal S4x56x56x30 .f32 := iblk m c 1 t

/-- The contribution of point t: the sum of the cell losses over its blocks' cells. -/
def contrib (c : Dev nD) (t : Fin cfg0.N) : EReal := batchSum (pblk m c t) (qblk m c t)

/-- The running total after point n. -/
def running (c : Dev nD) : (n : ℕ) → n < cfg0.N → EReal
  | 0, h => contrib m c ⟨0, h⟩
  | n + 1, h => running c n (Nat.lt_of_succ_lt h) + contrib m c ⟨n + 1, h⟩

/-- The zero the first point stores is the extended real 0. -/
theorem pay2_zero (y : S1x1.Idx) : k0_pay2 (F := Ideal) y = 0 := by
  unfold k0_pay2
  rw [shapeCast_self]
  exact Ideal.ofBits_zero_f32

/-- THE INVARIANT: after point n the accumulator holds the running total. -/
theorem scratch_eq (c : Dev nD) : ∀ (n : ℕ) (hn : n < cfg0.N), (outsAt0 m c n hn).2 = fun _ => running m c n hn
  | 0, hn => by
    have h0 : (⟨0, hn⟩ : Fin cfg0.N).val % 64 = 0 := rfl
    have h1 : ¬(⟨0, hn⟩ : Fin cfg0.N).val % 64 = 63 := by show ¬(0 % 64 = 63); decide
    rw [outsAt0_A m c ⟨0, hn⟩ h0 h1]
    dsimp only
    refine (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr h0) (fun h => h1 ((hcond0_1 ⟨0, hn⟩).mp h)) (pblk m c ⟨0, hn⟩) (qblk m c ⟨0, hn⟩)).trans ?_
    refine (pay1_eq (pblk m c ⟨0, hn⟩) (qblk m c ⟨0, hn⟩) (k0_pay2 (F := Ideal))).trans ?_
    funext y
    show k0_pay2 (F := Ideal) y + contrib m c ⟨0, hn⟩ = contrib m c ⟨0, hn⟩
    rw [pay2_zero, zero_add]
  | n + 1, hn => by
    have hN : cfg0.N = 64 := N_0
    have ih := scratch_eq c n (Nat.lt_of_succ_lt hn)
    have h0 : ¬(⟨n + 1, hn⟩ : Fin cfg0.N).val % 64 = 0 := by dsimp only; omega
    by_cases h1 : (⟨n + 1, hn⟩ : Fin cfg0.N).val % 64 = 63
    · rw [outsAt0_C m c ⟨n + 1, hn⟩ h0 h1]
      dsimp only
      refine (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (pblk m c ⟨n + 1, hn⟩) (qblk m c ⟨n + 1, hn⟩) _).trans ?_
      refine (pay1_eq (pblk m c ⟨n + 1, hn⟩) (qblk m c ⟨n + 1, hn⟩) _).trans ?_
      funext y
      show (outsAt0 m c n _).2 y + contrib m c ⟨n + 1, hn⟩ = running m c n _ + contrib m c ⟨n + 1, hn⟩
      rw [ih]
    · rw [outsAt0_B m c ⟨n + 1, hn⟩ h0 h1]
      dsimp only
      refine (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (pblk m c ⟨n + 1, hn⟩) (qblk m c ⟨n + 1, hn⟩) _).trans ?_
      refine (pay1_eq (pblk m c ⟨n + 1, hn⟩) (qblk m c ⟨n + 1, hn⟩) _).trans ?_
      funext y
      show (outsAt0 m c n _).2 y + contrib m c ⟨n + 1, hn⟩ = running m c n _ + contrib m c ⟨n + 1, hn⟩
      rw [ih]

/-- The last point. -/
abbrev tLast : Fin cfg0.N := ⟨63, by rw [show cfg0.N = 64 from N_0]; decide⟩

/-- THE OUTPUT BLOCK at the last point holds the total over all points. -/
theorem out_last (c : Dev nD) : (outsAt0 m c tLast.val tLast.isLt).1 = fun _ => running m c 63 tLast.isLt := by
  have h0 : ¬(tLast : Fin cfg0.N).val % 64 = 0 := by decide
  have h1 : (tLast : Fin cfg0.N).val % 64 = 63 := rfl
  rw [outsAt0_C m c tLast h0 h1]
  dsimp only
  refine (out_C (F := Ideal) c (grid0.coords tLast) (ms0_0 tLast) (hs0_0 tLast) (ms0_1 tLast) (hs0_1 tLast) (ms0_2 tLast) (hs0_2 tLast) scM0_0 (Memref.isWhole_whole _) (fun h => h0 ((hcond0_0 tLast).mp h)) ((hcond0_1 tLast).mpr h1) (pblk m c tLast) (qblk m c tLast) _).trans ?_
  refine (pay1_eq (pblk m c tLast) (qblk m c tLast) _).trans ?_
  funext y
  show (outsAt0 m c 62 _).2 y + contrib m c tLast = running m c 62 _ + contrib m c tLast
  rw [scratch_eq m c 62]

end Cert.KernelIdeal.Accum

end
-- ==== Proof.KernelValue.lean ====
/-
  The kernel's result: the total over every cell of its two arguments, divided by 256.

  The output window's block index never moves and the block is written back once, after the last grid point, when it
  holds the total over all 64 points; it is the whole one by one result array, so that array ends holding the total. The
  lines after the kernel reshape it to a scalar and divide by 256. The block the kernel holds at point t is the t-th
  group of four batch entries of the argument, so a point's contribution is that group's sum of cell losses, and by the
  regrouping of the sum the total over the points is the sum over all cells.
-/
import proofs.«181439_j23089744183399_2_alg».proof.Proof.Accum
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Accum Cert.CellLoss
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The total over all 64 points. -/
def total (c : Dev nD) : EReal := running m c 63 tLast.isLt

/-- The result array's contents after the run: the total at its one index. -/
abbrev outArr (c : Dev nD) : Buf (Elt Ideal) ((c : Thread nD τ).loc main_v0) := fun _ => total m c

/-- The one write-back, after the last point, writes the total. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_last]
  rfl

/-- So the result array ends holding the total: the last point's block covers it. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- The lines after the kernel: the result is the total divided by 256. -/
theorem tail_eq (c : Dev nD) :
    Pipeline.afterTail₀ cfgs (dats m) 0 (V0 m) [hostOps1] c main_v2
      = fun _ => Ideal.div (total m c) (Ideal.ofBits .f32 0x43800000#32) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v0)
      = outArr m c :=
    (Pipeline.withArrays_arr spec0 launch0.win.arr_inj c _ _ 2).trans (final_out m c)
  rw [hA]
  funext x
  rfl

/-! ## The blocks are the groups of four batch entries -/

theorem lt64 (t : Fin cfg0.N) : t.val < 64 := lt_of_lt_of_eq t.isLt (show cfg0.N = 64 from N_0)

/-- The block index of the two input windows at point t: t on the batch axis, 0 on the others (decided over the grid). -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The block of the predictions at point t is the t-th group of four batch entries of the first argument; -/
theorem pblk_eq (c : Dev nD) (t : Fin cfg0.N) :
    pblk m c t = blockOf (m ((c : Thread nD τ).loc main_arg0)) (⟨t.val, lt64 t⟩ : Fin 64) := by
  obtain ⟨i0, i1, i2, i3⟩ := index0 t
  funext y
  show iblk m c 0 t y = _
  unfold iblk blockOf
  rw [View.read_apply]
  refine congrArg (m ((c : Thread nD τ).loc main_arg0)) (funext fun a => Fin.ext ?_)
  have hy0 : (y 0).val < 4 := (y 0).isLt
  match a with
  | ⟨0, _⟩ => show win0_0.index t 0 * 4 + 1 * (y 0).val = 4 * t.val + (y 0).val; rw [i0]; omega
  | ⟨1, _⟩ => show win0_0.index t 1 * 56 + 1 * (y 1).val = (y 1).val; rw [i1]; omega
  | ⟨2, _⟩ => show win0_0.index t 2 * 56 + 1 * (y 2).val = (y 2).val; rw [i2]; omega
  | ⟨3, _⟩ => show win0_0.index t 3 * 30 + 1 * (y 3).val = (y 3).val; rw [i3]; omega

/-- and the block of the targets that of the second. -/
theorem qblk_eq (c : Dev nD) (t : Fin cfg0.N) :
    qblk m c t = blockOf (m ((c : Thread nD τ).loc main_arg1)) (⟨t.val, lt64 t⟩ : Fin 64) := by
  obtain ⟨i0, i1, i2, i3⟩ := index1 t
  funext y
  show iblk m c 1 t y = _
  unfold iblk blockOf
  rw [View.read_apply]
  refine congrArg (m ((c : Thread nD τ).loc main_arg1)) (funext fun a => Fin.ext ?_)
  have hy0 : (y 0).val < 4 := (y 0).isLt
  match a with
  | ⟨0, _⟩ => show win0_1.index t 0 * 4 + 1 * (y 0).val = 4 * t.val + (y 0).val; rw [i0]; omega
  | ⟨1, _⟩ => show win0_1.index t 1 * 56 + 1 * (y 1).val = (y 1).val; rw [i1]; omega
  | ⟨2, _⟩ => show win0_1.index t 2 * 56 + 1 * (y 2).val = (y 2).val; rw [i2]; omega
  | ⟨3, _⟩ => show win0_1.index t 3 * 30 + 1 * (y 3).val = (y 3).val; rw [i3]; omega

/-! ## The total over the points is the sum over all cells -/

/-- The running total after point n is the sum of the contributions of the points 0..n. -/
theorem running_eq_sum (c : Dev nD) : ∀ (n : ℕ) (hn : n < cfg0.N),
    running m c n hn = ∑ t : Fin (n + 1), contrib m c ⟨t.val, lt_of_lt_of_le t.isLt hn⟩
  | 0, hn => by
    rw [Fin.sum_univ_one]
    rfl
  | n + 1, hn => by
    rw [Fin.sum_univ_castSucc]
    show running m c n _ + contrib m c ⟨n + 1, hn⟩ = _
    rw [running_eq_sum c n]
    rfl

/-- THE TOTAL: the sum of the cell losses over every cell of the two arguments. -/
theorem total_eq (c : Dev nD) :
    total m c = batchSum (m ((c : Thread nD τ).loc main_arg0)) (m ((c : Thread nD τ).loc main_arg1)) := by
  unfold total
  rw [running_eq_sum, batchSum_blocks]
  refine Finset.sum_congr rfl fun t _ => ?_
  show batchSum (pblk m c _) (qblk m c _) = _
  rw [pblk_eq, qblk_eq]

/-! ## The run -/

/-- Every weakly fair execution of the kernel's program terminates with its result at the mean cell loss of its arguments, the
    arguments unchanged. -/
theorem run : θ_run defs (onTc (τ := τ) (main (F := Ideal))) ⟨m, fun _ => 0, ρ⟩ fun r => ∀ c : Dev nD,
      r.2.mem ((c.tc : Thread nD τ).loc main_v2)
          = meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 rfl (fun w => by fin_cases w <;> decide))).trans
        ((tail_eq m c).trans (by rw [total_eq]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The YOLO loss, computed block by block with an accumulator, against the loss computed in one sum.

  Both programs form, for each cell (n, i, j) of a 256 x 56 x 56 grid with 30 predicted channels p and 30 target
  channels q, the cell loss

      obj * ( 5 * ( sum_{d<2} (p_d - q_d)^2 + sum_{d in 2..3} (sqrt p_d - sqrt q_d)^2 ) + (p_4 - q_4)^2
                + sum_{d in 5..29} (p_d - q_d)^2 ) + (1 - obj) * ( 1/2 * (p_4 - q_4)^2 ),

  with obj the indicator of q_4 = 1, by the same operations in the same order on the same literals; the reference sums
  it over all cells at once and divides by 256, while the kernel walks the 64 groups of four batch entries, adds each group's
  sum over its cells (taken over columns, then rows, then the four entries) to an accumulator that starts at zero, copies
  the accumulator out after the last group, and divides by 256 on the host. Over the extended reals addition is
  commutative and associative at every value, so the two groupings of the one sum agree and both results are the
  total of the cell losses divided by 256; no finiteness of the inputs is used.

  The frames: the kernel's two programs by their frame runs, the reference's by its run with the result dropped. The
  idealization rewrote nothing, so it is preserved trivially.
-/
import proofs.«181439_j23089744183399_2_alg».proof.Defs
import proofs.«181439_j23089744183399_2_alg».proof.Proof.Gen.Kernel
import proofs.«181439_j23089744183399_2_alg».proof.Proof.Gen.Kernel.Skeleton
import proofs.«181439_j23089744183399_2_alg».proof.Proof.Gen.Kernel.Launch
import proofs.«181439_j23089744183399_2_alg».proof.Proof.Gen.Kernel.Points
import proofs.«181439_j23089744183399_2_alg».proof.Proof.Gen.Kernel.Frame
import proofs.«181439_j23089744183399_2_alg».proof.Proof.Gen.KernelIdeal
import proofs.«181439_j23089744183399_2_alg».proof.Proof.Gen.KernelIdeal.Skeleton
import proofs.«181439_j23089744183399_2_alg».proof.Proof.Gen.KernelIdeal.Launch
import proofs.«181439_j23089744183399_2_alg».proof.Proof.Gen.KernelIdeal.Points
import proofs.«181439_j23089744183399_2_alg».proof.Proof.Gen.KernelIdeal.Frame
import proofs.«181439_j23089744183399_2_alg».proof.Proof.Gen.ReferenceIdeal
import proofs.«181439_j23089744183399_2_alg».proof.Proof.Gen.ReferenceIdeal.Run
import proofs.«181439_j23089744183399_2_alg».proof.Proof.Gen.ReferenceIdeal.Read
import proofs.«181439_j23089744183399_2_alg».proof.Proof.Gen.Pre_finite_inputs
import proofs.«181439_j23089744183399_2_alg».proof.Proof.CellLoss
import proofs.«181439_j23089744183399_2_alg».proof.Proof.RefLoss
import proofs.«181439_j23089744183399_2_alg».proof.Proof.KernelValue
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end at the mean cell loss of those arguments. -/
theorem algebraic : Cert.algebraic_KernelIdeal_ReferenceIdeal := by
  intro m ρ m' ρ' _ hagree
  refine ⟨fun c => Cert.CellLoss.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefLoss.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
